-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_

variable [Facts]

def fn {F : FTy → Type} [FloatOps F] (main_arg0 : FVec F S16384x2048 .f32) (main_arg1 : FVec F S64x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  main_v8
-- ==== Kernel.lean ====
abbrev S16384x2048 : Shape := ⟨2, ![16384, 2048]⟩
abbrev S64x2048 : Shape := ⟨2, ![64, 2048]⟩
abbrev S64x16384 : Shape := ⟨2, ![64, 16384]⟩
abbrev S1024x2048 : Shape := ⟨2, ![1024, 2048]⟩
abbrev S64x1024 : Shape := ⟨2, ![64, 1024]⟩
abbrev S1024 : Shape := ⟨1, ![1024]⟩
abbrev S1x1024 : Shape := ⟨2, ![1, 1024]⟩
abbrev S16384x64 : Shape := ⟨2, ![16384, 64]⟩

abbrev nBuf : Space → Nat
  | .hbm => 4
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64x16384, .f32⟩
  | .hbm, ⟨3, _⟩ => ⟨S16384x64, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64x2048_S64x2048_0_0 : ∀ a, (![0, 0] : Fin 2 → Nat) a + S64x2048.size a ≤ S64x2048.size a
  h_S64x2048 : 0 < S64x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  reduces_S64x1024_S1024 : S64x1024.Reduces [0] S1024
  shapeCasts_S1024_S1x1024 : S1024.ShapeCasts S1x1024
  broadcasts_S1x1024_S64x1024 : S1x1024.Broadcasts S64x1024
  inb_S64x2048_S64x1024_0_0 : ∀ a, (![0, 0] : Fin 2 → Nat) a + S64x1024.size a ≤ S64x2048.size a
  h_S64x1024 : 0 < S64x1024.numel
  inb_S64x2048_S64x1024_0_1024 : ∀ a, (![0, 1024] : Fin 2 → Nat) a + S64x1024.size a ≤ S64x2048.size a
  transposes_S64x16384_S16384x64_1_0 : S64x16384.Transposes [1, 0] S16384x64
  dot_S64x2048_S1024x2048_S64x1024_1_1_0_0_n_n_wf : DotDims.WF S64x2048 S1024x2048 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .f32 = 32 ∨ (Rect.block (s := S16384x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .f32 = 32 ∨ (Rect.block (s := S64x2048) S64x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x16384.size a
  hwx0_3 : ∀ i : grid0.Coords, EltTy.bits .f32 = 32 ∨ (Rect.block (s := S64x16384) S64x2048.size (cc0_transform_3 i) (hinb0_3 i)).WholeWords (EltTy.packing .f32)

variable [Facts₀]

def dot_S64x2048_S1024x2048_S64x1024_1_1_0_0_n_n : DotDims S64x2048 S1024x2048 S64x1024 where
  lhsContracting := [1]
  rhsContracting := [1]
  lhsNonContracting := [0]
  rhsNonContracting := [0]
  lhsBatch := []
  rhsBatch := []
  wf := dot_S64x2048_S1024x2048_S64x1024_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64x2048 : Shape := ⟨2, ![64, 2048]⟩
abbrev S2048x64 : Shape := ⟨2, ![2048, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩

abbrev nBuf : Space → Nat
  | .hbm => 18
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S2048x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x64, .f32⟩
  | .hbm, ⟨11, _⟩ => ⟨S16384x64, .f32⟩
  | .hbm, ⟨12, _⟩ => ⟨S16384x64, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x64, .f32⟩
  | .hbm, ⟨17, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  transposes_S64x2048_S2048x64_1_0 : S64x2048.Transposes [1, 0] S2048x64
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.K.Body.lean ====
/-
  The router kernel's body at one grid point, and the pipeline's proof data.

  At a point the body is handed three input buffers — the 64 × 2048 weights and two 1024 × 2048 blocks of token rows, both
  blocks cut from the ONE activation array (rows (2t)·1024… and (2t+1)·1024…) — and one 64 × 2048 output buffer. It reads
  the inputs whole, and writes the output buffer in two 64 × 1024 halves: columns 0…1023 from the first block of rows,
  columns 1024…2047 from the second. The two halves tile the buffer, so what the body leaves there is a function of the
  three inputs alone (`outBlock`), whatever the buffer held before (the body also loads each half before storing it; the
  loaded values are used nowhere). The inputs are left as they were found.
  The proof data say exactly this per point; because the two row-block windows read one array, each holds one half of
  that array's share.
-/
import proofs.«174773_g5935644803098_cont_9to1_m_954_22_alg».proof.Proof.Gen.Kernel.Launch
import proofs.«174773_g5935644803098_cont_9to1_m_954_22_alg».proof.Proof.Gen.Kernel.Skeleton
import proofs.«174773_g5935644803098_cont_9to1_m_954_22_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and a window's block of them -/

/-- Core `c`'s buffers when the region is entered: @main begins with the region, so they are as launched. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles and what it leaves in the output buffer -/

/-- The weights buffer, whole; -/
abbrev rW : Rect S64x2048 := Rect.unit (s := S64x2048) ![0, 0] S64x2048.size inb_S64x2048_S64x2048_0_0
/-- a block of token rows, whole; -/
abbrev rX : Rect S1024x2048 := Rect.unit (s := S1024x2048) ![0, 0] S1024x2048.size inb_S1024x2048_S1024x2048_0_0
/-- the output buffer's columns 0…1023 -/
abbrev rLo : Rect S64x2048 := Rect.unit (s := S64x2048) ![0, 0] S64x1024.size inb_S64x2048_S64x1024_0_0
/-- and its columns 1024…2047. -/
abbrev rHi : Rect S64x2048 := Rect.unit (s := S64x2048) ![0, 1024] S64x1024.size inb_S64x2048_S64x1024_0_1024

/-- The output buffer after the body: the second store (the upper columns, from the second block of rows) over the
    first (the lower columns, from the first block). -/
def outBlock (w : Vec F S64x2048 .f32) (x0 x1 : Vec F S1024x2048 .f32) : Vec F S64x2048 .f32 :=
  View.canon [⟨rHi, k0_pay3 (View.ld w rW) (View.ld x1 rX)⟩, ⟨rLo, k0_pay2 (View.ld w rW) (View.ld x0 rX)⟩]

/-- The two halves tile the buffer. -/
theorem halves_cover (p1 p0 : Vec F S64x1024 .f32) (y : S64x2048.Idx) :
    ∃ pc ∈ ([⟨rHi, p1⟩, ⟨rLo, p0⟩] : List (View.Piece (Elt F) S64x2048 .f32)), y ∈ pc.1.set :=
  View.cover_of_tiled [⟨rHi, p1⟩, ⟨rLo, p0⟩] S64x1024.size (by rfl) y

/-! ## The body's triple -/

set_option maxHeartbeats 1000000 in
/-- On whole buffers — the inputs at contents `w`, `x0`, `x1`, the output at anything — the body runs to the continuation
    with the inputs as they were and the output at `outBlock w x0 x1`. -/
theorem body_runs (c : Dev nD) (E : Set ℕ) (i : grid0.Coords)
    (arg1 : Memref sig .tc .vmem S1024x2048 .f32) (harg1 : arg1.IsWhole) (arg2 : Memref sig .tc .vmem S1024x2048 .f32) (harg2 : arg2.IsWhole)
    (arg3 : Memref sig .tc .vmem S64x2048 .f32) (harg3 : arg3.IsWhole) (arg4 : Memref sig .tc .vmem S64x2048 .f32) (harg4 : arg4.IsWhole)
    (x0 x1 : Vec F S1024x2048 .f32) (w : Vec F S64x2048 .f32) (K : PUnit → sProp 𝕄) :
    iprop(owns (c : Thread nD τ) arg1 fullShare x0 ∗ owns (c : Thread nD τ) arg2 fullShare x1 ∗ owns (c : Thread nD τ) arg3 fullShare w
        ∗ (∃ d, owns (c : Thread nD τ) arg4 fullShare d)
        ∗ (iprop(owns (c : Thread nD τ) arg1 fullShare x0 ∗ owns (c : Thread nD τ) arg2 fullShare x1 ∗ owns (c : Thread nD τ) arg3 fullShare w
            ∗ owns (c : Thread nD τ) arg4 fullShare (outBlock w x0 x1)) -∗ K ⟨⟩))
      ⊢ wp frame (wpE (defs₀ (F := F)) Variants.none c none) E (cc0__router_block i arg1 harg1 arg2 harg2 arg3 harg3 arg4 harg4) K := by
  simp only [cc0__router_block_eq_skeleton]; unfold cc0__router_block_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (halves_cover _ _)

/-! ## The proof data -/

/-- Per point: every input buffer keeps its block, the output buffer ends at `outBlock` of the three input blocks; the
    region keeps nothing of its own between points (no scoped buffer but the staging ones, no semaphore); nothing is owed. The two
    row-block windows, on one array, hold its left and right half share; the weights window holds its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 2 t) (iblk m c 0 t) (iblk m c 1 t)
  Φ _ := iprop(emp)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outBlock (iblk m c 2 t) (iblk m c 0 t) (iblk m c 1 t) := by dsimp only [dats]

/-- An input buffer holds its window's block at every point, fetched there or carried over (the weights are fetched at
    the first point only, and their block index never moves). -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The body obligation -/

/-- What the body is called with at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (body_runs c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact body_at m c t

/-! ## After the region -/

/-- The transposed probabilities after the last write-back. -/
def outArr (c : Dev nD) : Buf (Elt F) ((c : Thread nD τ).loc main_v0) := (dats m 0 c).arrAt 3 cfg0.N

/-- What the host line after the region starts from: the launch contents with the kernel's result in place. -/
def Wt (c : Dev nD) : Valuation τ sig (Elt F) := Function.update (fun b => m (c, b)) (Proc.devRef .tc main_v0) (outArr m c)

/-- The program's result: the host line's transpose of the kernel's result. -/
def resArr (c : Dev nD) : Buf (Elt F) ((c : Thread nD τ).loc main_v1) :=
  StableHlo.after (hostOps1 (F := F)) (Wt m c) (Proc.devRef .tc main_v1)

end Cert.Kernel.Hand

end
-- ==== Proof.K.Run.lean ====
/-
  The router program run from its launch: the region, then the transpose.

  The region's two row-block windows read ONE array, the activations. When the region is entered that array's full share
  is split into its left and right halves, one for each window; both windows only ever read, so at the region's exit each
  half still holds the array as launched, and the halves are never needed whole again: the one host line that follows reads
  the kernel's 64 × 16384 result and writes the program's 16384 × 64 result, its transpose, and touches nothing else.
  So every weakly fair execution terminates without a fault, the result buffer holds the transpose of what the region's
  write-backs assembled, and the two argument arrays end as they were launched.
-/
import proofs.«174773_g5935644803098_cont_9to1_m_954_22_alg».proof.Proof.K.Body
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl

theorem image_arr : Finset.univ.image (Pipeline.arrRef spec0) = {main_arg0, main_arg1, main_v0} := by decide

theorem arrBufs_eq (c : Dev nD) (Vv : (b : Ref sig .tc) → Buf (Elt F) ((c : Thread nD τ).loc b)) :
    (Pipeline.arrBufs spec0 c Vv : sProp 𝕄)
      = iprop((((c : Thread nD τ).loc main_arg0) ↦{fullShare} Vv main_arg0) ∗ (((c : Thread nD τ).loc main_arg1) ↦{fullShare} Vv main_arg1)
          ∗ (((c : Thread nD τ).loc main_v0) ↦{fullShare} Vv main_v0)) := by
  unfold Pipeline.arrBufs
  rw [image_arr, bigSep_insert (by decide), bigSep_insert (by decide), bigSep_singleton]
  rfl

/-- The pipeline's four arrays, window by window: the activations twice, at the left and the right half share. -/
theorem arrays_eq' (c : Dev nD) (A : (w : Fin cfg0.W) → Buf (Elt F) ((cfg0.win w).arr.view.loc (c.tc : Thread nD τ))) :
    ((dats m 0 c).arrays A : sProp 𝕄)
      = iprop((((c : Thread nD τ).loc main_arg0) ↦{fullShare.left} A 0) ∗ (((c : Thread nD τ).loc main_arg0) ↦{fullShare.right} A 1)
          ∗ (((c : Thread nD τ).loc main_arg1) ↦{fullShare} A 2) ∗ (((c : Thread nD τ).loc main_v0) ↦{fullShare} A 3)) := by
  unfold Dat.arrays
  rw [bigSep_W0]
  rw [(arr_whole0 0).set_eq_univ, (arr_whole0 2).set_eq_univ, (arr_whole0 3).set_eq_univ]
  rw [share_0, share_1, share_2, share_3]

/-- At entry the one activations buffer, held whole, is dealt to the two windows that read it. -/
theorem arrays_of_bufs (c : Dev nD) :
    (Pipeline.arrBufs spec0 c (V m c) : sProp 𝕄) ⊢ (dats m 0 c).arrays ((dats m 0 c).arrAt · 0) := by
  rw [arrBufs_eq, arrays_eq']
  iintro ⟨Hx, Hw, Ho⟩
  ihave Hx' := (pointsTo_share (PosShare.mem_left_op_right fullShare)).1 $$ Hx
  icases Hx' with ⟨Hl, Hr⟩
  isplitl [Hl]; · iexact Hl
  isplitl [Hr]; · iexact Hr
  isplitl [Hw]; · iexact Hw
  iexact Ho

/-! ## After the region: the transpose -/

/-- The two buffers the host line touches. -/
abbrev St : Finset (DevRef τ sig) := {Proc.devRef .tc main_v0, Proc.devRef .tc main_v1}

theorem hostOps1_fresh : (hostOps1 : List (HloOp τ sig (Elt F))).Forall fun op => op.fresh = ∅ := by
  simp only [List.Forall]; repeat' constructor

theorem tail_in : ∀ ops ∈ ([hostOps1] : List (List (HloOp τ sig (Elt F)))), ∀ op ∈ ops, op.bufs ⊆ St := by
  intro ops hops op hop
  simp only [List.mem_cons, List.mem_nil_iff, or_false] at hops
  subst hops
  simp only [hostOps1, List.mem_cons, List.mem_nil_iff, or_false] at hop
  subst hop
  exact fun b hb => hb

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem held_before (c : Dev nD) :
    (StableHlo.held (c.tc : Thread nD τ) St (Wt m c) : sProp 𝕄)
      = iprop((((c : Thread nD τ).loc main_v0) ↦{fullShare} outArr m c) ∗ (((c : Thread nD τ).loc main_v1) ↦{fullShare} V m c main_v1)) := by
  unfold StableHlo.held St
  rw [bigSep_insert (by decide), bigSep_singleton]
  unfold Wt
  rw [Function.update_self, Function.update_of_ne (by decide)]
  rfl

theorem held_after (c : Dev nD) :
    (StableHlo.held (c.tc : Thread nD τ) St (StableHlo.after (List.flatten [hostOps1 (F := F)]) (Wt m c)) : sProp 𝕄)
      = iprop((((c : Thread nD τ).loc main_v0) ↦{fullShare} outArr m c) ∗ (((c : Thread nD τ).loc main_v1) ↦{fullShare} resArr m c)) := by
  have h0 : StableHlo.after (List.flatten [hostOps1 (F := F)]) (Wt m c) (Proc.devRef .tc main_v0) = outArr m c := by
    show StableHlo.after (hostOps1 (F := F)) (Wt m c) (Proc.devRef .tc main_v0) = _
    rw [StableHlo.after_of_forall_not_mem _ _ (by
      intro op hop
      simp only [hostOps1, List.mem_cons, List.mem_nil_iff, or_false] at hop
      subst hop
      show Proc.devRef .tc main_v0 ∉ ({Proc.devRef .tc main_v1} : Finset (DevRef τ sig))
      decide)]
    unfold Wt
    rw [Function.update_self]
  unfold StableHlo.held St
  rw [bigSep_insert (by decide), bigSep_singleton, h0]
  rfl

set_option backward.isDefEq.respectTransparency.types false in
/-- From the region's exit the transpose runs, reading the kernel's result and writing the program's. -/
theorem tail_runs (c : Dev nD) (Q' : PUnit → sProp 𝕄) :
    iprop((iprop((dats m 0 c).arrays ((dats m 0 c).arrAt · cfg0.N) ∗ (((c : Thread nD τ).loc main_v1) ↦{fullShare} resArr m c)) -∗ Q' ⟨⟩)
        ∗ boundary (c.tc : Thread nD τ) ∗ (dats m 0 c).arrays ((dats m 0 c).arrAt · cfg0.N) ∗ (((c : Thread nD τ).loc main_v1) ↦{fullShare} V m c main_v1))
      ⊢ wp frame (wpE (defs (F := F)) (Variants.lift Variants.none) (c.tc : Thread nD τ) none) Set.univ (Pipeline.chain ([hostOps1 (F := F)].map StableHlo.seq)) Q' := by
  rw [arrays_eq', ← List.append_nil ([hostOps1 (F := F)].map StableHlo.seq)]
  iintro ⟨Hk, Hb, ⟨Hl, Hr, Hw, Ho⟩, Hv⟩
  iapply (Pipeline.wp_seqs_then (pcfgs (F := F)) defs₀ Variants.none c St [] [hostOps1] (tail_in) (tail_fresh) (Wt m c)) $$ [Hb Ho Hv]
  · rw [held_before]
    isplitl [Hb]; · iexact Hb
    isplitl [Ho]; · iexact Ho
    iexact Hv
  iintro Hb
  rw [Pipeline.chain_nil, wp_pure, held_after]
  imodintro
  iapply Hk
  icases Hb with ⟨-, Ho, Hv⟩
  isplitr [Hv]
  · isplitl [Hl]; · iexact Hl
    isplitl [Hr]; · iexact Hr
    isplitl [Hw]; · iexact Hw
    iexact Ho
  · iexact Hv

/-! ## The run -/

abbrev adm : (p : Fin 1) → (pcfgs (F := F) p).Adm := fun p => (cfgs p).toPCfg_adm

/-- What the run leaves: the program's result, and the two arguments as launched. -/
def Post : PUnit × MemSt nD τ sig (Elt F) → Prop := fun r => ∀ c : Dev nD,
    r.2.mem ((c.tc : Thread nD τ).loc main_v1) = resArr m c
    ∧ r.2.mem ((c.tc : Thread nD τ).loc main_arg0) = m ((c.tc : Thread nD τ).loc main_arg0)
    ∧ r.2.mem ((c.tc : Thread nD τ).loc main_arg1) = m ((c.tc : Thread nD τ).loc main_arg1)

set_option backward.isDefEq.respectTransparency.types false in
/-- For any float values, from any memory with zero counters: every weakly fair execution of @main terminates without a
    fault; the result buffer ends at the transpose of what the region's write-backs assembled, and the two argument arrays
    end as launched. The region is launched with the activations' share dealt to its two row-block windows. -/
theorem run_main : θ_run defs (onTc (τ := τ) (main (F := F))) ⟨m, fun _ => 0, ρ⟩ (Post m) :=
  Pipeline.θ_run_region_noSem_pf_tail (pcfgs (F := F)) adm (dats m) () cellOf_inj (0 : Fin 1) winFacts₀0 (Pipeline.PreFacts.none _) emb₁ defs₀ Variants.none m ρ main
    (fun _ => Pipeline.chain ([hostOps1 (F := F)].map StableHlo.seq))
    (hbody := fun c => (body_obligation m c).loose) (hne := block_pos0) (harr := arr_whole0) (hstage := stage_whole0)
    (howed := fun _ _ => rfl)
    (u₀ := initOf (Pipeline.cells (Pipeline.pin (pcfgs (F := F)) adm) cellOf_inj) (Pipeline.launchToks (Pipeline.pin (pcfgs (F := F)) adm) cellOf_inj))
    (hu₀ := .rfl)
    (V := V m)
    (hmain := Pipeline.hmain_around cfgs 0 defs₀ Variants.none m main [] [hostOps1] (by simp only [List.Forall]) (by simp only [List.Forall]) main_chain)
    (hsplit := arrays_of_bufs m)
    (hpf := fun _ k => k.elim0)
    (X := fun _ => iprop(emp)) (Y := fun _ => iprop(emp))
    (Z := fun c => iprop(((c : Thread nD τ).loc main_v1) ↦{fullShare} V m c main_v1))
    (Z' := fun c => iprop(((c : Thread nD τ).loc main_v1) ↦{fullShare} resArr m c))
    (hX := fun c => by
      show (Pipeline.unscopedRestP Pipeline.Prefetch.none spec0 c (V m c) : sProp 𝕄) ⊢ _
      rw [Pipeline.unscopedRestP_none, unscopedRest0_eq]
      iintro H; isplitr; · iempintro
      iexact H)
    (hin := fun c => by
      show _ ⊢ (iprop(emp) : sProp 𝕄)
      iintro -; iempintro)
    (hout := fun c => by
      show (iprop(emp) : sProp 𝕄) ⊢ _
      rw [scopedRest0_eq]; iintro -; isplitr <;> iempintro)
    (htail := tail_runs m)
    (QY := fun c s => s.mem ((c.tc : Thread nD τ).loc main_v1) = resArr m c)
    (hY := fun c s' => by
      iintro ⟨-, Hv, HSI⟩
      icombine HSI Hv gives %h
      imodintro
      isplitr; · ipureintro; exact Buf.eq_of_forall_mem_univ h
      iexact HSI)
    (hQ := fun s h c => ⟨(h c).2.2, ((h c).1 0).trans (((dats m 0 c).arrAt_in 0 rfl _).trans (A_eq m c 0)),
      ((h c).1 2).trans (((dats m 0 c).arrAt_in 2 rfl _).trans (A_eq m c 2))⟩)

end Cert.Kernel.Hand

end
-- ==== Proof.KI.Body.lean ====
/-
  The router kernel's body at one grid point, and the pipeline's proof data.

  At a point the body is handed three input buffers — the 64 × 2048 weights and two 1024 × 2048 blocks of token rows, both
  blocks cut from the ONE activation array (rows (2t)·1024… and (2t+1)·1024…) — and one 64 × 2048 output buffer. It reads
  the inputs whole, and writes the output buffer in two 64 × 1024 halves: columns 0…1023 from the first block of rows,
  columns 1024…2047 from the second. The two halves tile the buffer, so what the body leaves there is a function of the
  three inputs alone (`outBlock`), whatever the buffer held before (the body also loads each half before storing it; the
  loaded values are used nowhere). The inputs are left as they were found.
  The proof data say exactly this per point; because the two row-block windows read one array, each holds one half of
  that array's share.
-/
import proofs.«174773_g5935644803098_cont_9to1_m_954_22_alg».proof.Proof.Gen.KernelIdeal.Launch
import proofs.«174773_g5935644803098_cont_9to1_m_954_22_alg».proof.Proof.Gen.KernelIdeal.Skeleton
import proofs.«174773_g5935644803098_cont_9to1_m_954_22_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered, and a window's block of them -/

/-- Core `c`'s buffers when the region is entered: @main begins with the region, so they are as launched. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles and what it leaves in the output buffer -/

/-- The weights buffer, whole; -/
abbrev rW : Rect S64x2048 := Rect.unit (s := S64x2048) ![0, 0] S64x2048.size inb_S64x2048_S64x2048_0_0
/-- a block of token rows, whole; -/
abbrev rX : Rect S1024x2048 := Rect.unit (s := S1024x2048) ![0, 0] S1024x2048.size inb_S1024x2048_S1024x2048_0_0
/-- the output buffer's columns 0…1023 -/
abbrev rLo : Rect S64x2048 := Rect.unit (s := S64x2048) ![0, 0] S64x1024.size inb_S64x2048_S64x1024_0_0
/-- and its columns 1024…2047. -/
abbrev rHi : Rect S64x2048 := Rect.unit (s := S64x2048) ![0, 1024] S64x1024.size inb_S64x2048_S64x1024_0_1024

/-- The output buffer after the body: the second store (the upper columns, from the second block of rows) over the
    first (the lower columns, from the first block). -/
def outBlock (w : Vec F S64x2048 .f32) (x0 x1 : Vec F S1024x2048 .f32) : Vec F S64x2048 .f32 :=
  View.canon [⟨rHi, k0_pay3 (View.ld w rW) (View.ld x1 rX)⟩, ⟨rLo, k0_pay2 (View.ld w rW) (View.ld x0 rX)⟩]

/-- The two halves tile the buffer. -/
theorem halves_cover (p1 p0 : Vec F S64x1024 .f32) (y : S64x2048.Idx) :
    ∃ pc ∈ ([⟨rHi, p1⟩, ⟨rLo, p0⟩] : List (View.Piece (Elt F) S64x2048 .f32)), y ∈ pc.1.set :=
  View.cover_of_tiled [⟨rHi, p1⟩, ⟨rLo, p0⟩] S64x1024.size (by rfl) y

/-! ## The body's triple -/

set_option maxHeartbeats 1000000 in
/-- On whole buffers — the inputs at contents `w`, `x0`, `x1`, the output at anything — the body runs to the continuation
    with the inputs as they were and the output at `outBlock w x0 x1`. -/
theorem body_runs (c : Dev nD) (E : Set ℕ) (i : grid0.Coords)
    (arg1 : Memref sig .tc .vmem S1024x2048 .f32) (harg1 : arg1.IsWhole) (arg2 : Memref sig .tc .vmem S1024x2048 .f32) (harg2 : arg2.IsWhole)
    (arg3 : Memref sig .tc .vmem S64x2048 .f32) (harg3 : arg3.IsWhole) (arg4 : Memref sig .tc .vmem S64x2048 .f32) (harg4 : arg4.IsWhole)
    (x0 x1 : Vec F S1024x2048 .f32) (w : Vec F S64x2048 .f32) (K : PUnit → sProp 𝕄) :
    iprop(owns (c : Thread nD τ) arg1 fullShare x0 ∗ owns (c : Thread nD τ) arg2 fullShare x1 ∗ owns (c : Thread nD τ) arg3 fullShare w
        ∗ (∃ d, owns (c : Thread nD τ) arg4 fullShare d)
        ∗ (iprop(owns (c : Thread nD τ) arg1 fullShare x0 ∗ owns (c : Thread nD τ) arg2 fullShare x1 ∗ owns (c : Thread nD τ) arg3 fullShare w
            ∗ owns (c : Thread nD τ) arg4 fullShare (outBlock w x0 x1)) -∗ K ⟨⟩))
      ⊢ wp frame (wpE (defs₀ (F := F)) Variants.none c none) E (cc0__router_block i arg1 harg1 arg2 harg2 arg3 harg3 arg4 harg4) K := by
  simp only [cc0__router_block_eq_skeleton]; unfold cc0__router_block_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (halves_cover _ _)

/-! ## The proof data -/

/-- Per point: every input buffer keeps its block, the output buffer ends at `outBlock` of the three input blocks; the
    region keeps nothing of its own between points (no scoped buffer but the staging ones, no semaphore); nothing is owed. The two
    row-block windows, on one array, hold its left and right half share; the weights window holds its array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 2 t) (iblk m c 0 t) (iblk m c 1 t)
  Φ _ := iprop(emp)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outBlock (iblk m c 2 t) (iblk m c 0 t) (iblk m c 1 t) := by dsimp only [dats]

/-- An input buffer holds its window's block at every point, fetched there or carried over (the weights are fetched at
    the first point only, and their block index never moves). -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

/-! ## The body obligation -/

/-- What the body is called with at point `t`, the four windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (body_runs c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact body_at m c t

/-! ## After the region -/

/-- The transposed probabilities after the last write-back. -/
def outArr (c : Dev nD) : Buf (Elt F) ((c : Thread nD τ).loc main_v0) := (dats m 0 c).arrAt 3 cfg0.N

/-- What the host line after the region starts from: the launch contents with the kernel's result in place. -/
def Wt (c : Dev nD) : Valuation τ sig (Elt F) := Function.update (fun b => m (c, b)) (Proc.devRef .tc main_v0) (outArr m c)

/-- The program's result: the host line's transpose of the kernel's result. -/
def resArr (c : Dev nD) : Buf (Elt F) ((c : Thread nD τ).loc main_v1) :=
  StableHlo.after (hostOps1 (F := F)) (Wt m c) (Proc.devRef .tc main_v1)

end Cert.KernelIdeal.Hand

end
-- ==== Proof.KI.Run.lean ====
/-
  The router program run from its launch: the region, then the transpose.

  The region's two row-block windows read ONE array, the activations. When the region is entered that array's full share
  is split into its left and right halves, one for each window; both windows only ever read, so at the region's exit each
  half still holds the array as launched, and the halves are never needed whole again: the one host line that follows reads
  the kernel's 64 × 16384 result and writes the program's 16384 × 64 result, its transpose, and touches nothing else.
  So every weakly fair execution terminates without a fault, the result buffer holds the transpose of what the region's
  write-backs assembled, and the two argument arrays end as they were launched.
-/
import proofs.«174773_g5935644803098_cont_9to1_m_954_22_alg».proof.Proof.KI.Body
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl

theorem image_arr : Finset.univ.image (Pipeline.arrRef spec0) = {main_arg0, main_arg1, main_v0} := by decide

theorem arrBufs_eq (c : Dev nD) (Vv : (b : Ref sig .tc) → Buf (Elt F) ((c : Thread nD τ).loc b)) :
    (Pipeline.arrBufs spec0 c Vv : sProp 𝕄)
      = iprop((((c : Thread nD τ).loc main_arg0) ↦{fullShare} Vv main_arg0) ∗ (((c : Thread nD τ).loc main_arg1) ↦{fullShare} Vv main_arg1)
          ∗ (((c : Thread nD τ).loc main_v0) ↦{fullShare} Vv main_v0)) := by
  unfold Pipeline.arrBufs
  rw [image_arr, bigSep_insert (by decide), bigSep_insert (by decide), bigSep_singleton]
  rfl

/-- The pipeline's four arrays, window by window: the activations twice, at the left and the right half share. -/
theorem arrays_eq' (c : Dev nD) (A : (w : Fin cfg0.W) → Buf (Elt F) ((cfg0.win w).arr.view.loc (c.tc : Thread nD τ))) :
    ((dats m 0 c).arrays A : sProp 𝕄)
      = iprop((((c : Thread nD τ).loc main_arg0) ↦{fullShare.left} A 0) ∗ (((c : Thread nD τ).loc main_arg0) ↦{fullShare.right} A 1)
          ∗ (((c : Thread nD τ).loc main_arg1) ↦{fullShare} A 2) ∗ (((c : Thread nD τ).loc main_v0) ↦{fullShare} A 3)) := by
  unfold Dat.arrays
  rw [bigSep_W0]
  rw [(arr_whole0 0).set_eq_univ, (arr_whole0 2).set_eq_univ, (arr_whole0 3).set_eq_univ]
  rw [share_0, share_1, share_2, share_3]

/-- At entry the one activations buffer, held whole, is dealt to the two windows that read it. -/
theorem arrays_of_bufs (c : Dev nD) :
    (Pipeline.arrBufs spec0 c (V m c) : sProp 𝕄) ⊢ (dats m 0 c).arrays ((dats m 0 c).arrAt · 0) := by
  rw [arrBufs_eq, arrays_eq']
  iintro ⟨Hx, Hw, Ho⟩
  ihave Hx' := (pointsTo_share (PosShare.mem_left_op_right fullShare)).1 $$ Hx
  icases Hx' with ⟨Hl, Hr⟩
  isplitl [Hl]; · iexact Hl
  isplitl [Hr]; · iexact Hr
  isplitl [Hw]; · iexact Hw
  iexact Ho

/-! ## After the region: the transpose -/

/-- The two buffers the host line touches. -/
abbrev St : Finset (DevRef τ sig) := {Proc.devRef .tc main_v0, Proc.devRef .tc main_v1}

theorem hostOps1_fresh : (hostOps1 : List (HloOp τ sig (Elt F))).Forall fun op => op.fresh = ∅ := by
  simp only [List.Forall]; repeat' constructor

theorem tail_in : ∀ ops ∈ ([hostOps1] : List (List (HloOp τ sig (Elt F)))), ∀ op ∈ ops, op.bufs ⊆ St := by
  intro ops hops op hop
  simp only [List.mem_cons, List.mem_nil_iff, or_false] at hops
  subst hops
  simp only [hostOps1, List.mem_cons, List.mem_nil_iff, or_false] at hop
  subst hop
  exact fun b hb => hb

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

theorem held_before (c : Dev nD) :
    (StableHlo.held (c.tc : Thread nD τ) St (Wt m c) : sProp 𝕄)
      = iprop((((c : Thread nD τ).loc main_v0) ↦{fullShare} outArr m c) ∗ (((c : Thread nD τ).loc main_v1) ↦{fullShare} V m c main_v1)) := by
  unfold StableHlo.held St
  rw [bigSep_insert (by decide), bigSep_singleton]
  unfold Wt
  rw [Function.update_self, Function.update_of_ne (by decide)]
  rfl

theorem held_after (c : Dev nD) :
    (StableHlo.held (c.tc : Thread nD τ) St (StableHlo.after (List.flatten [hostOps1 (F := F)]) (Wt m c)) : sProp 𝕄)
      = iprop((((c : Thread nD τ).loc main_v0) ↦{fullShare} outArr m c) ∗ (((c : Thread nD τ).loc main_v1) ↦{fullShare} resArr m c)) := by
  have h0 : StableHlo.after (List.flatten [hostOps1 (F := F)]) (Wt m c) (Proc.devRef .tc main_v0) = outArr m c := by
    show StableHlo.after (hostOps1 (F := F)) (Wt m c) (Proc.devRef .tc main_v0) = _
    rw [StableHlo.after_of_forall_not_mem _ _ (by
      intro op hop
      simp only [hostOps1, List.mem_cons, List.mem_nil_iff, or_false] at hop
      subst hop
      show Proc.devRef .tc main_v0 ∉ ({Proc.devRef .tc main_v1} : Finset (DevRef τ sig))
      decide)]
    unfold Wt
    rw [Function.update_self]
  unfold StableHlo.held St
  rw [bigSep_insert (by decide), bigSep_singleton, h0]
  rfl

set_option backward.isDefEq.respectTransparency.types false in
/-- From the region's exit the transpose runs, reading the kernel's result and writing the program's. -/
theorem tail_runs (c : Dev nD) (Q' : PUnit → sProp 𝕄) :
    iprop((iprop((dats m 0 c).arrays ((dats m 0 c).arrAt · cfg0.N) ∗ (((c : Thread nD τ).loc main_v1) ↦{fullShare} resArr m c)) -∗ Q' ⟨⟩)
        ∗ boundary (c.tc : Thread nD τ) ∗ (dats m 0 c).arrays ((dats m 0 c).arrAt · cfg0.N) ∗ (((c : Thread nD τ).loc main_v1) ↦{fullShare} V m c main_v1))
      ⊢ wp frame (wpE (defs (F := F)) (Variants.lift Variants.none) (c.tc : Thread nD τ) none) Set.univ (Pipeline.chain ([hostOps1 (F := F)].map StableHlo.seq)) Q' := by
  rw [arrays_eq', ← List.append_nil ([hostOps1 (F := F)].map StableHlo.seq)]
  iintro ⟨Hk, Hb, ⟨Hl, Hr, Hw, Ho⟩, Hv⟩
  iapply (Pipeline.wp_seqs_then (pcfgs (F := F)) defs₀ Variants.none c St [] [hostOps1] (tail_in) (tail_fresh) (Wt m c)) $$ [Hb Ho Hv]
  · rw [held_before]
    isplitl [Hb]; · iexact Hb
    isplitl [Ho]; · iexact Ho
    iexact Hv
  iintro Hb
  rw [Pipeline.chain_nil, wp_pure, held_after]
  imodintro
  iapply Hk
  icases Hb with ⟨-, Ho, Hv⟩
  isplitr [Hv]
  · isplitl [Hl]; · iexact Hl
    isplitl [Hr]; · iexact Hr
    isplitl [Hw]; · iexact Hw
    iexact Ho
  · iexact Hv

/-! ## The run -/

abbrev adm : (p : Fin 1) → (pcfgs (F := F) p).Adm := fun p => (cfgs p).toPCfg_adm

/-- What the run leaves: the program's result, and the two arguments as launched. -/
def Post : PUnit × MemSt nD τ sig (Elt F) → Prop := fun r => ∀ c : Dev nD,
    r.2.mem ((c.tc : Thread nD τ).loc main_v1) = resArr m c
    ∧ r.2.mem ((c.tc : Thread nD τ).loc main_arg0) = m ((c.tc : Thread nD τ).loc main_arg0)
    ∧ r.2.mem ((c.tc : Thread nD τ).loc main_arg1) = m ((c.tc : Thread nD τ).loc main_arg1)

set_option backward.isDefEq.respectTransparency.types false in
/-- For any float values, from any memory with zero counters: every weakly fair execution of @main terminates without a
    fault; the result buffer ends at the transpose of what the region's write-backs assembled, and the two argument arrays
    end as launched. The region is launched with the activations' share dealt to its two row-block windows. -/
theorem run_main : θ_run defs (onTc (τ := τ) (main (F := F))) ⟨m, fun _ => 0, ρ⟩ (Post m) :=
  Pipeline.θ_run_region_noSem_pf_tail (pcfgs (F := F)) adm (dats m) () cellOf_inj (0 : Fin 1) winFacts₀0 (Pipeline.PreFacts.none _) emb₁ defs₀ Variants.none m ρ main
    (fun _ => Pipeline.chain ([hostOps1 (F := F)].map StableHlo.seq))
    (hbody := fun c => (body_obligation m c).loose) (hne := block_pos0) (harr := arr_whole0) (hstage := stage_whole0)
    (howed := fun _ _ => rfl)
    (u₀ := initOf (Pipeline.cells (Pipeline.pin (pcfgs (F := F)) adm) cellOf_inj) (Pipeline.launchToks (Pipeline.pin (pcfgs (F := F)) adm) cellOf_inj))
    (hu₀ := .rfl)
    (V := V m)
    (hmain := Pipeline.hmain_around cfgs 0 defs₀ Variants.none m main [] [hostOps1] (by simp only [List.Forall]) (by simp only [List.Forall]) main_chain)
    (hsplit := arrays_of_bufs m)
    (hpf := fun _ k => k.elim0)
    (X := fun _ => iprop(emp)) (Y := fun _ => iprop(emp))
    (Z := fun c => iprop(((c : Thread nD τ).loc main_v1) ↦{fullShare} V m c main_v1))
    (Z' := fun c => iprop(((c : Thread nD τ).loc main_v1) ↦{fullShare} resArr m c))
    (hX := fun c => by
      show (Pipeline.unscopedRestP Pipeline.Prefetch.none spec0 c (V m c) : sProp 𝕄) ⊢ _
      rw [Pipeline.unscopedRestP_none, unscopedRest0_eq]
      iintro H; isplitr; · iempintro
      iexact H)
    (hin := fun c => by
      show _ ⊢ (iprop(emp) : sProp 𝕄)
      iintro -; iempintro)
    (hout := fun c => by
      show (iprop(emp) : sProp 𝕄) ⊢ _
      rw [scopedRest0_eq]; iintro -; isplitr <;> iempintro)
    (htail := tail_runs m)
    (QY := fun c s => s.mem ((c.tc : Thread nD τ).loc main_v1) = resArr m c)
    (hY := fun c s' => by
      iintro ⟨-, Hv, HSI⟩
      icombine HSI Hv gives %h
      imodintro
      isplitr; · ipureintro; exact Buf.eq_of_forall_mem_univ h
      iexact HSI)
    (hQ := fun s h c => ⟨(h c).2.2, ((h c).1 0).trans (((dats m 0 c).arrAt_in 0 rfl _).trans (A_eq m c 0)),
      ((h c).1 2).trans (((dats m 0 c).arrAt_in 2 rfl _).trans (A_eq m c 2))⟩)

end Cert.KernelIdeal.Hand

end
-- ==== Proof.Spec.lean ====
/-
  What the router computes, as ONE function of its two argument arrays over the extended reals.

  A token row `r` of the activations `x` (16384 × 2048) meets expert `e`'s weight row of `w` (64 × 2048) in the logit
  `∑ k, x (r, k) · w (e, k)`; the row's 64 logits are shifted by their maximum (folded from −∞, the float word
  `0xFF800000`), exponentiated, and divided by the sum of the 64 exponentials. `softmaxRow` is that last step for any 64
  logits: both programs are read as `softmaxRow` of the same logits, so nothing about ±∞ or about the order of the sums
  is ever needed beyond commutativity.
-/
import Idealize.ShloMosaic.PureOps.Ideal
import Idealize.ShloMosaic.Lib.ValueIdx

noncomputable section

namespace Cert.Router

open Idealize.ShloMosaic Idealize.ShloMosaic.ValueIdx
open scoped BigOperators

/-- The largest of 64 logits: the fold of `max` from −∞. -/
def rowMax (l : Fin 64 → EReal) : EReal :=
  (Finset.univ : Finset (Fin 64)).fold max (Ideal.ofBits .f32 0xFF800000#32) l

/-- The softmax of 64 logits at expert `e`: `exp (l e − max l) / ∑ e', exp (l e' − max l)`. -/
def softmaxRow (l : Fin 64 → EReal) (e : Fin 64) : EReal :=
  Ideal.div (Ideal.exp (l e - rowMax l)) (∑ e' : Fin 64, Ideal.exp (l e' - rowMax l))

/-- The activations, the weights and the probabilities as shapes. -/
abbrev SX : Shape := ⟨2, ![16384, 2048]⟩
abbrev SW : Shape := ⟨2, ![64, 2048]⟩
abbrev SP : Shape := ⟨2, ![16384, 64]⟩

/-- Token `r`'s logit for expert `e`. -/
def logit (x : SX.Idx → EReal) (w : SW.Idx → EReal) (r : Fin 16384) (e : Fin 64) : EReal :=
  ∑ k : Fin 2048, x (ix2 r k) * w (ix2 e k)

/-- The routing probabilities: row `r`, column `e` is the softmax of row `r`'s logits at `e`. -/
def probs (x : SX.Idx → EReal) (w : SW.Idx → EReal) : SP.Idx → EReal :=
  fun i => softmaxRow (logit x w (i 0)) (i 1)

theorem probs_ix2 (x : SX.Idx → EReal) (w : SW.Idx → EReal) (r : Fin 16384) (e : Fin 64) :
    probs x w (ix2 r e) = softmaxRow (logit x w r) e := rfl

end Cert.Router

end
-- ==== Proof.PayValue.lean ====
/-
  The kernel's block of routing probabilities, read at one index.

  For the weights `w` (64 × 2048) and a block `xb` of 1024 token rows (1024 × 2048) the body computes the 64 × 1024 array of
  logits `L (e, r) = ∑ k, w (e, k) · xb (r, k)`, takes for each column `r` the maximum over the 64 experts (folded from −∞),
  subtracts it, exponentiates, sums the 64 exponentials of the column and divides by that sum. Read at `(e, r)` that is the
  softmax of column `r`'s 64 logits at expert `e`; each product is commuted so that the logit is written token first.
-/
import proofs.«174773_g5935644803098_cont_9to1_m_954_22_alg».proof.Proof.Gen.KernelIdeal.Skeleton
import proofs.«174773_g5935644803098_cont_9to1_m_954_22_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayValue

open Idealize.ShloMosaic Idealize.ShloMosaic.ValueIdx Cert.KernelIdeal Cert.KernelIdeal.Gen
open scoped BigOperators

/-! ## The product's operand indices

The product contracts axis 1 of the weights with axis 1 of the block; the result's axes are the weights' axis 0 and the
block's axis 0. -/

/-- The weights' row is the result's row. -/
theorem lhs_mm_0 (i : S64x1024.Idx) (q : dot_S64x2048_S1024x2048_S64x1024_1_1_0_0_n_n.contr.Idx) :
    (dot_S64x2048_S1024x2048_S64x1024_1_1_0_0_n_n.lhsIdx i q 0).val = (i 0).val := by
  unfold DotDims.lhsIdx
  rw [dif_neg (show ¬(0 : Fin S64x2048.rank) ∈ dot_S64x2048_S1024x2048_S64x1024_1_1_0_0_n_n.lhsBatch by decide), dif_pos (show (0 : Fin S64x2048.rank) ∈ dot_S64x2048_S1024x2048_S64x1024_1_1_0_0_n_n.lhsNonContracting by decide)]
  rfl
/-- The weights' column is the contraction position. -/
theorem lhs_mm_1 (i : S64x1024.Idx) (q : dot_S64x2048_S1024x2048_S64x1024_1_1_0_0_n_n.contr.Idx) :
    (dot_S64x2048_S1024x2048_S64x1024_1_1_0_0_n_n.lhsIdx i q 1).val = (q ⟨0, by decide⟩).val :=
  dot_S64x2048_S1024x2048_S64x1024_1_1_0_0_n_n.lhsIdx_val_of_single rfl i q
/-- The block's row is the result's column. -/
theorem rhs_mm_0 (i : S64x1024.Idx) (q : dot_S64x2048_S1024x2048_S64x1024_1_1_0_0_n_n.contr.Idx) :
    (dot_S64x2048_S1024x2048_S64x1024_1_1_0_0_n_n.rhsIdx i q 0).val = (i 1).val := by
  unfold DotDims.rhsIdx
  rw [dif_neg (show ¬(0 : Fin S1024x2048.rank) ∈ dot_S64x2048_S1024x2048_S64x1024_1_1_0_0_n_n.rhsBatch by decide), dif_pos (show (0 : Fin S1024x2048.rank) ∈ dot_S64x2048_S1024x2048_S64x1024_1_1_0_0_n_n.rhsNonContracting by decide)]
  rfl
/-- The block's column is the contraction position. -/
theorem rhs_mm_1 (i : S64x1024.Idx) (q : dot_S64x2048_S1024x2048_S64x1024_1_1_0_0_n_n.contr.Idx) :
    (dot_S64x2048_S1024x2048_S64x1024_1_1_0_0_n_n.rhsIdx i q 1).val = (q ⟨0, by decide⟩).val :=
  dot_S64x2048_S1024x2048_S64x1024_1_1_0_0_n_n.rhsIdx_val_of_single rfl i q

/-! ## The logits -/

/-- The block's logits as the body computes them: the product of the weights with the block, into zero. -/
def logits (w : Vec Ideal S64x2048 .f32) (xb : Vec Ideal S1024x2048 .f32) : FVec Ideal S64x1024 .f32 :=
  matmul dot_S64x2048_S1024x2048_S64x1024_1_1_0_0_n_n none (k0_pay1 (F := Ideal) w) (truncf .bf16 xb bitsLt_bf16_f32) (constant (F := Ideal) S64x1024 .f32 0x00000000#32)

/-- Expert `e`'s logit for the block's token `r`: `∑ k, xb (r, k) · w (e, k)`. -/
theorem logits_apply (w : Vec Ideal S64x2048 .f32) (xb : Vec Ideal S1024x2048 .f32) (e : Fin 64) (r : Fin 1024) :
    logits w xb (ix2 e r) = ∑ k : Fin 2048, xb (ix2 r k) * w (ix2 e k) := by
  unfold logits k0_pay1
  simp only [matmul]
  rw [Ideal.matmul_constant_zero_apply, ← Equiv.sum_comp (contrEquiv1 dot_S64x2048_S1024x2048_S64x1024_1_1_0_0_n_n 2048 rfl rfl).symm]
  refine Finset.sum_congr rfl fun k _ => ?_
  have hk := contrEquiv1_symm_val dot_S64x2048_S1024x2048_S64x1024_1_1_0_0_n_n 2048 rfl rfl k
  have el : dot_S64x2048_S1024x2048_S64x1024_1_1_0_0_n_n.lhsIdx (ix2 e r) ((contrEquiv1 dot_S64x2048_S1024x2048_S64x1024_1_1_0_0_n_n 2048 rfl rfl).symm k) = ix2 e k := funext fun a => Fin.ext (by
    match a with
    | ⟨0, _⟩ => exact lhs_mm_0 _ _
    | ⟨1, _⟩ => exact (lhs_mm_1 _ _).trans hk)
  have er : dot_S64x2048_S1024x2048_S64x1024_1_1_0_0_n_n.rhsIdx (ix2 e r) ((contrEquiv1 dot_S64x2048_S1024x2048_S64x1024_1_1_0_0_n_n 2048 rfl rfl).symm k) = ix2 r k := funext fun a => Fin.ext (by
    match a with
    | ⟨0, _⟩ => exact rhs_mm_0 _ _
    | ⟨1, _⟩ => exact (rhs_mm_1 _ _).trans hk)
  rw [el, er, truncf_apply, truncf_apply]
  exact mul_comm _ _

/-! ## A column's statistic kept along the rows -/

/-- A vector of 1024 column values viewed as one row and repeated down the 64 rows reads, at `(e, r)`, the value of column `r`. -/
def keep (c : FVec Ideal S1024 .f32) : FVec Ideal S64x1024 .f32 :=
  broadcastTo S64x1024 (shapeCast S1x1024 c shapeCasts_S1024_S1x1024) broadcasts_S1x1024_S64x1024

theorem keep_apply (c : FVec Ideal S1024 .f32) (e : Fin 64) (r : Fin 1024) : keep c (ix2 e r) = c (ix1 r) := by
  unfold keep
  rw [broadcastTo_1b_ab_apply, shapeCast_a_1a_apply]

/-! ## The two reductions down a column -/

/-- The source index over column `r` with row `e'` inserted is `(e', r)`. -/
theorem lift_col (r : Fin 1024) (e' : Fin 64) :
    reduces_S64x1024_S1024.lift (ix1 r) e' = ix2 e' r :=
  funext fun a => Fin.ext (by
    match a with
    | ⟨0, _⟩ => rfl
    | ⟨1, _⟩ => rfl)

/-- The maximum of each column over the 64 rows, folded from −∞. -/
def colMax (L : FVec Ideal S64x1024 .f32) : FVec Ideal S1024 .f32 :=
  multiReduction (F := Ideal) .maximumf [0] S1024 L 0xFF800000#32 reduces_S64x1024_S1024 (.inl rfl) rfl

theorem colMax_apply (L : FVec Ideal S64x1024 .f32) (r : Fin 1024) :
    colMax L (ix1 r) = Cert.Router.rowMax (fun e' : Fin 64 => L (ix2 e' r)) := by
  unfold colMax Cert.Router.rowMax
  refine (Ideal.multiReduction_maximumf_single L 0xFF800000#32 reduces_S64x1024_S1024 (.inl rfl) rfl (ix1 r)).trans ?_
  have hf : (L ∘ reduces_S64x1024_S1024.lift (ix1 r)) = fun e' : Fin 64 => L (ix2 e' r) :=
    funext fun e' => congrArg L (lift_col r e')
  rw [hf]
  rfl

/-- The sum of each column over the 64 rows. -/
def colSum (E : FVec Ideal S64x1024 .f32) : FVec Ideal S1024 .f32 :=
  multiReduction (F := Ideal) .add [0] S1024 E 0x00000000#32 reduces_S64x1024_S1024 (.inl rfl) rfl

theorem colSum_apply (E : FVec Ideal S64x1024 .f32) (r : Fin 1024) :
    colSum E (ix1 r) = ∑ e' : Fin 64, E (ix2 e' r) := by
  unfold colSum
  refine (Ideal.multiReduction_add_single E 0x00000000#32 reduces_S64x1024_S1024 (.inl rfl) rfl (ix1 r)).trans ?_
  exact Finset.sum_congr rfl fun e' _ => congrArg E (lift_col r e')

/-! ## The softmax down each column -/

/-- The exponentials of the logits shifted by their column's maximum. -/
def shifted (L : FVec Ideal S64x1024 .f32) : FVec Ideal S64x1024 .f32 :=
  exp (subf L (keep (colMax L)))

theorem shifted_apply (L : FVec Ideal S64x1024 .f32) (e : Fin 64) (r : Fin 1024) :
    shifted L (ix2 e r)
      = Ideal.exp (L (ix2 e r) - Cert.Router.rowMax (fun e' : Fin 64 => L (ix2 e' r))) := by
  unfold shifted
  show Ideal.exp (L (ix2 e r) - keep (colMax L) (ix2 e r)) = _
  rw [keep_apply, colMax_apply]

/-- The body from the logits on: each shifted exponential divided by its column's sum. -/
def colSoftmax (L : FVec Ideal S64x1024 .f32) : FVec Ideal S64x1024 .f32 :=
  divf (shifted L) (keep (colSum (shifted L)))

/-- At `(e, r)` it is the softmax of column `r`'s 64 logits at expert `e`. -/
theorem colSoftmax_apply (L : FVec Ideal S64x1024 .f32) (e : Fin 64) (r : Fin 1024) :
    colSoftmax L (ix2 e r) = Cert.Router.softmaxRow (fun e' : Fin 64 => L (ix2 e' r)) e := by
  unfold colSoftmax Cert.Router.softmaxRow
  rw [divf_apply, keep_apply, colSum_apply, shifted_apply]
  exact congrArg (Ideal.div _) (Finset.sum_congr rfl fun e' _ => shifted_apply L e' r)

/-! ## The two payloads -/

/-- The first half's payload is the column softmax of its logits. -/
theorem pay2_eq (w : Vec Ideal S64x2048 .f32) (xb : Vec Ideal S1024x2048 .f32) :
    k0_pay2 (F := Ideal) w xb = colSoftmax (logits w xb) := rfl

/-- The second half's payload is the same term. -/
theorem pay3_eq : k0_pay3 (F := Ideal) = k0_pay2 (F := Ideal) := rfl

/-- The first half's payload at `(e, r)`: the softmax of token `r`'s 64 logits at expert `e`. -/
theorem pay2_apply (w : Vec Ideal S64x2048 .f32) (xb : Vec Ideal S1024x2048 .f32) (e : Fin 64) (r : Fin 1024) :
    k0_pay2 (F := Ideal) w xb (ix2 e r)
      = Cert.Router.softmaxRow (fun e' : Fin 64 => ∑ k : Fin 2048, xb (ix2 r k) * w (ix2 e' k)) e := by
  rw [pay2_eq, colSoftmax_apply]
  exact congrArg (fun l => Cert.Router.softmaxRow l e) (funext fun e' => logits_apply w xb e' r)

/-- The second half's payload at `(e, r)`, likewise. -/
theorem pay3_apply (w : Vec Ideal S64x2048 .f32) (xb : Vec Ideal S1024x2048 .f32) (e : Fin 64) (r : Fin 1024) :
    k0_pay3 (F := Ideal) w xb (ix2 e r)
      = Cert.Router.softmaxRow (fun e' : Fin 64 => ∑ k : Fin 2048, xb (ix2 r k) * w (ix2 e' k)) e := by
  rw [pay3_eq]
  exact pay2_apply w xb e r

end Cert.KernelIdeal.PayValue

end
-- ==== Proof.KI.OutValue.lean ====
/-
  The probabilities' array after the kernel's run.

  The grid has 8 points. Point `t` is handed the whole 64 × 2048 weights, the activation rows `2t·1024 …` and
  `(2t+1)·1024 …` (1024 rows each), and writes back columns `t·2048 … t·2048 + 2047` of the 64 × 16384 output. The lower half
  of its block (column `q < 1024`) is the softmax of token row `2t·1024 + q = t·2048 + q`'s logits, the upper half (column
  `1024 + q`) that of token row `(2t+1)·1024 + q = t·2048 + 1024 + q`: so what point `t` writes back is block `t` of ONE
  function of the two arguments, "column `R` is the softmax of token row `R`'s logits", and the 8 blocks tile the array.
-/
import proofs.«174773_g5935644803098_cont_9to1_m_954_22_alg».proof.Proof.KI.Body
import proofs.«174773_g5935644803098_cont_9to1_m_954_22_alg».proof.Proof.PayValue
import proofs.«174773_g5935644803098_cont_9to1_m_954_22_alg».proof.Proof.Spec
import Idealize.ShloMosaic.Lib.Pipeline.Value
import Idealize.ShloMosaic.Lib.ValueIdx

noncomputable section

namespace Cert.KernelIdeal.OutValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

theorem hz : (![0, 0] : Fin 2 → Nat) = fun _ => 0 := funext fun a => by fin_cases a <;> rfl

/-! ## The array the run leaves, as one function of the arguments -/

/-- Row `e`, column `R`: the softmax of token row `R`'s 64 logits at expert `e`. -/
def G (x : S16384x2048.Idx → EReal) (w : S64x2048.Idx → EReal) : S64x16384.Idx → EReal :=
  fun j => Cert.Router.softmaxRow (Cert.Router.logit x w (j 1)) (j 0)

/-- The same at an index whose coordinates are known as numbers. -/
theorem G_at (x : S16384x2048.Idx → EReal) (w : S64x2048.Idx → EReal) (j : S64x16384.Idx) (e : Fin 64) (R : Fin 16384)
    (h0 : (j 0).val = e.val) (h1 : (j 1).val = R.val) :
    G x w j = Cert.Router.softmaxRow (Cert.Router.logit x w R) e := by
  obtain rfl : j = ix2 e R := funext fun a => Fin.ext (by
    match a with
    | ⟨0, _⟩ => exact h0
    | ⟨1, _⟩ => exact h1)
  rfl

/-! ## The index maps over the grid -/

theorem N8 : cfg0.N = 8 := N_0

/-- Point `t` reads row blocks `2t` and `2t + 1`, the one weights block, and writes column block `t`. -/
theorem idx_facts : ∀ t : Fin cfg0.N, win0_0.index t (0 : Fin 2) = 2 * t.val ∧ win0_0.index t (1 : Fin 2) = 0
    ∧ win0_1.index t (0 : Fin 2) = 2 * t.val + 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-! ## The input blocks at a point, read off the arguments -/

/-- The weights block is the weights. -/
theorem wblk_apply (c : Dev nD) (t : Fin cfg0.N) (e : Fin 64) (k : Fin 2048) :
    (iblk m c 2 t : Vec Ideal S64x2048 .f32) (ix2 e k)
      = (m ((c : Thread nD τ).loc main_arg1) : S64x2048.Idx → EReal) (ix2 e k) := by
  obtain ⟨-, -, -, -, e4, e5, -, -⟩ := idx_facts t
  unfold iblk
  rw [View.read_apply]
  show V m c main_arg1 _ = m (c.tc.loc main_arg1) _
  unfold V
  congr 1
  funext a
  apply Fin.ext
  match a with
  | ⟨0, _⟩ => show win0_2.index t (0 : Fin 2) * 64 + 1 * e.val = e.val; omega
  | ⟨1, _⟩ => show win0_2.index t (1 : Fin 2) * 2048 + 1 * k.val = k.val; omega

/-- The first row block at point `t` is the activations' rows `t·2048 …`. -/
theorem xblk0_apply (c : Dev nD) (t : Fin cfg0.N) (q : Fin 1024) (k : Fin 2048) (R : Fin 16384)
    (hR : R.val = t.val * 2048 + q.val) :
    (iblk m c 0 t : Vec Ideal S1024x2048 .f32) (ix2 q k)
      = (m ((c : Thread nD τ).loc main_arg0) : S16384x2048.Idx → EReal) (ix2 R k) := by
  obtain ⟨e0, e1, -, -, -, -, -, -⟩ := idx_facts t
  unfold iblk
  rw [View.read_apply]
  show V m c main_arg0 _ = m (c.tc.loc main_arg0) _
  unfold V
  congr 1
  funext a
  apply Fin.ext
  match a with
  | ⟨0, _⟩ => show win0_0.index t (0 : Fin 2) * 1024 + 1 * q.val = R.val; omega
  | ⟨1, _⟩ => show win0_0.index t (1 : Fin 2) * 2048 + 1 * k.val = k.val; omega

/-- The second row block at point `t` is the activations' rows `t·2048 + 1024 …`. -/
theorem xblk1_apply (c : Dev nD) (t : Fin cfg0.N) (q : Fin 1024) (k : Fin 2048) (R : Fin 16384)
    (hR : R.val = t.val * 2048 + 1024 + q.val) :
    (iblk m c 1 t : Vec Ideal S1024x2048 .f32) (ix2 q k)
      = (m ((c : Thread nD τ).loc main_arg0) : S16384x2048.Idx → EReal) (ix2 R k) := by
  obtain ⟨-, -, e2, e3, -, -, -, -⟩ := idx_facts t
  unfold iblk
  rw [View.read_apply]
  show V m c main_arg0 _ = m (c.tc.loc main_arg0) _
  unfold V
  congr 1
  funext a
  apply Fin.ext
  match a with
  | ⟨0, _⟩ => show win0_1.index t (0 : Fin 2) * 1024 + 1 * q.val = R.val; omega
  | ⟨1, _⟩ => show win0_1.index t (1 : Fin 2) * 2048 + 1 * k.val = k.val; omega

/-! ## The two halves of a point's block -/

/-- A block of token rows against the weights block: the logits of the activations' rows the block holds. -/
theorem logits_of_rows (c : Dev nD) (t : Fin cfg0.N) (X : Vec Ideal S1024x2048 .f32) (q : Fin 1024) (R : Fin 16384)
    (hX : ∀ k : Fin 2048, X (ix2 q k) = (m ((c : Thread nD τ).loc main_arg0) : S16384x2048.Idx → EReal) (ix2 R k)) :
    (fun e' : Fin 64 => ∑ k : Fin 2048, (View.ld X rX) (ix2 q k) * (View.ld (iblk m c 2 t : Vec Ideal S64x2048 .f32) rW) (ix2 e' k))
      = Cert.Router.logit (m ((c : Thread nD τ).loc main_arg0)) (m ((c : Thread nD τ).loc main_arg1)) R := by
  funext e'
  unfold Cert.Router.logit
  refine Finset.sum_congr rfl fun k _ => ?_
  have h1 : (View.ld X rX) (ix2 q k) = X (ix2 q k) :=
    congrFun (View.ld_unit_zero (S := S1024x2048) hz _ X) _
  have h2 : (View.ld (iblk m c 2 t : Vec Ideal S64x2048 .f32) rW) (ix2 e' k) = (iblk m c 2 t : Vec Ideal S64x2048 .f32) (ix2 e' k) :=
    congrFun (View.ld_unit_zero (S := S64x2048) hz _ _) _
  exact congrArg₂ (· * ·) (h1.trans (hX k)) (h2.trans (wblk_apply m c t e' k))

/-- The lower half of point `t`'s block, at row `e` and column `q`: the array's function at the element under it. -/
theorem lo_apply (c : Dev nD) (t : Fin cfg0.N) (e : Fin 64) (q : Fin 1024) :
    k0_pay2 (F := Ideal) (View.ld (iblk m c 2 t : Vec Ideal S64x2048 .f32) rW) (View.ld (iblk m c 0 t : Vec Ideal S1024x2048 .f32) rX) (ix2 e q)
      = G (m ((c : Thread nD τ).loc main_arg0)) (m ((c : Thread nD τ).loc main_arg1))
          (((cfg0.win 3).blk t).view.emb (rLo.emb (ix2 e q))) := by
  obtain ⟨-, -, -, -, -, -, e6, e7⟩ := idx_facts t
  have hN := N8
  have ht : t.val < 8 := by have := t.isLt; omega
  have hq : q.val < 1024 := q.isLt
  rw [PayValue.pay2_apply]
  refine Eq.trans ?_ (G_at _ _ _ e ⟨t.val * 2048 + q.val, by omega⟩ ?_ ?_).symm
  · rw [logits_of_rows m c t _ q ⟨t.val * 2048 + q.val, by omega⟩ (fun k => xblk0_apply m c t q k _ rfl)]
  · show win0_3.index t (0 : Fin 2) * 64 + 1 * (0 + 1 * e.val) = e.val; omega
  · show win0_3.index t (1 : Fin 2) * 2048 + 1 * (0 + 1 * q.val) = t.val * 2048 + q.val; omega

/-- The upper half of point `t`'s block, at row `e` and column `1024 + q`, likewise. -/
theorem hi_apply (c : Dev nD) (t : Fin cfg0.N) (e : Fin 64) (q : Fin 1024) :
    k0_pay3 (F := Ideal) (View.ld (iblk m c 2 t : Vec Ideal S64x2048 .f32) rW) (View.ld (iblk m c 1 t : Vec Ideal S1024x2048 .f32) rX) (ix2 e q)
      = G (m ((c : Thread nD τ).loc main_arg0)) (m ((c : Thread nD τ).loc main_arg1))
          (((cfg0.win 3).blk t).view.emb (rHi.emb (ix2 e q))) := by
  obtain ⟨-, -, -, -, -, -, e6, e7⟩ := idx_facts t
  have hN := N8
  have ht : t.val < 8 := by have := t.isLt; omega
  have hq : q.val < 1024 := q.isLt
  rw [PayValue.pay3_apply]
  refine Eq.trans ?_ (G_at _ _ _ e ⟨t.val * 2048 + 1024 + q.val, by omega⟩ ?_ ?_).symm
  · rw [logits_of_rows m c t _ q ⟨t.val * 2048 + 1024 + q.val, by omega⟩ (fun k => xblk1_apply m c t q k _ rfl)]
  · show win0_3.index t (0 : Fin 2) * 64 + 1 * (0 + 1 * e.val) = e.val; omega
  · show win0_3.index t (1 : Fin 2) * 2048 + 1 * (1024 + 1 * q.val) = t.val * 2048 + 1024 + q.val; omega

/-! ## What a point writes back, and the array -/

/-- What point `t` writes back is block `t` of `G` of the two arguments: each half's payload is `G` at the element under it,
    and the two halves tile the block. -/
theorem flushed_eq (c : Dev nD) (t : Fin cfg0.N) :
    (dats (F := Ideal) m 0 c).flushed 3 t
      = ((cfg0.win 3).blk t).view.read (Elt Ideal) (G (m ((c : Thread nD τ).loc main_arg0)) (m ((c : Thread nD τ).loc main_arg1))) := by
  show (cfg0.win 3).cut (grid0.coords t) ((dats (F := Ideal) m 0 c).after 3 t) = _
  rw [after_3]
  funext y
  rw [View.read_apply]
  show (outBlock (F := Ideal) (iblk m c 2 t) (iblk m c 0 t) (iblk m c 1 t) y : EReal)
    = G (m ((c : Thread nD τ).loc main_arg0)) (m ((c : Thread nD τ).loc main_arg1)) (((cfg0.win 3).blk t).view.emb y)
  unfold outBlock
  refine View.canon_apply_of_pieces (Val := Elt Ideal) (S := S64x2048) (e := .f32)
    (fun y : S64x2048.Idx => G (m ((c : Thread nD τ).loc main_arg0)) (m ((c : Thread nD τ).loc main_arg1)) (((cfg0.win 3).blk t).view.emb y))
    _ ?_ y (halves_cover _ _ y)
  intro p hp z
  rcases List.mem_cons.mp hp with rfl | hp
  · obtain ⟨e, q, rfl⟩ : ∃ (e : Fin 64) (q : Fin 1024), z = ix2 e q := ⟨z 0, z 1, eq_ix2 z⟩
    exact hi_apply m c t e q
  · obtain rfl := List.mem_singleton.mp hp
    obtain ⟨e, q, rfl⟩ : ∃ (e : Fin 64) (q : Fin 1024), z = ix2 e q := ⟨z 0, z 1, eq_ix2 z⟩
    exact lo_apply m c t e q

/-- An index of the array is in point `t`'s block iff each coordinate is in the block's range on its axis. -/
theorem mem_blk (t : Fin cfg0.N) (i : S64x16384.Idx) :
    i ∈ ((cfg0.win 3).blk t).view.set
      ↔ ∀ a : Fin 2, win0_3.index t a * S64x2048.size a ≤ (i a).val ∧ (i a).val < win0_3.index t a * S64x2048.size a + S64x2048.size a := by
  show i ∈ ((View.whole main_v0).slice (win0_3.rect t)).set ↔ _
  rw [View.set_slice_whole, Rect.mem_set_unit]
  exact Iff.rfl

/-- Column `R` of the array is in the block of point `R / 2048`: the 8 blocks tile the array. -/
theorem cover (i : S64x16384.Idx) :
    ∃ t : Fin cfg0.N, (cfg0.win 3).flush t = true ∧ i ∈ ((cfg0.win 3).blk t).view.set := by
  have hN := N8
  have hi0 : (i 0).val < 64 := (i 0).isLt
  have hi1 : (i 1).val < 16384 := (i 1).isLt
  refine ⟨⟨(i 1).val / 2048, by omega⟩, flush0_3 _, ?_⟩
  obtain ⟨-, -, -, -, -, -, e6, e7⟩ := idx_facts ⟨(i 1).val / 2048, by omega⟩
  rw [mem_blk]
  intro a
  match a with
  | ⟨0, _⟩ =>
    show win0_3.index _ (0 : Fin 2) * 64 ≤ (i 0).val ∧ (i 0).val < win0_3.index _ (0 : Fin 2) * 64 + 64
    rw [e6]; omega
  | ⟨1, _⟩ =>
    show win0_3.index _ (1 : Fin 2) * 2048 ≤ (i 1).val ∧ (i 1).val < win0_3.index _ (1 : Fin 2) * 2048 + 2048
    rw [e7]
    show (i 1).val / 2048 * 2048 ≤ (i 1).val ∧ (i 1).val < (i 1).val / 2048 * 2048 + 2048
    omega

/-- THE ARRAY after the run: row `e`, column `R` is the softmax of token row `R`'s 64 logits at expert `e`. -/
theorem out_final (c : Dev nD) :
    (dats (F := Ideal) m 0 c).arrAt 3 cfg0.N
      = fun j : S64x16384.Idx => Cert.Router.softmaxRow
          (Cert.Router.logit (m ((c : Thread nD τ).loc main_arg0)) (m ((c : Thread nD τ).loc main_arg1)) (j 1)) (j 0) :=
  (dats (F := Ideal) m 0 c).arrAt_eq_of_cover 3
    (G (m ((c : Thread nD τ).loc main_arg0)) (m ((c : Thread nD τ).loc main_arg1)))
    (fun t _ => flushed_eq m c t) cover

end Cert.KernelIdeal.OutValue

end
-- ==== Proof.KI.ResValue.lean ====
/-
  The kernel program's result, from the array the kernel leaves.

  The kernel writes the probabilities transposed, a 64 × 16384 array whose entry (e, r) is expert `e`'s probability for
  token `r`. The one host operation after it transposes that array. Read at (r, e), the transpose is the array at
  (e, r): so if the kernel's array is the softmax of each token's logits, laid out expert-major, the program's result is
  the routing probabilities `Cert.Router.probs`.
-/
import proofs.«174773_g5935644803098_cont_9to1_m_954_22_alg».proof.Proof.KI.Body
import proofs.«174773_g5935644803098_cont_9to1_m_954_22_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.ResValue

open Cert.KernelIdeal Cert.KernelIdeal.Gen Cert.KernelIdeal.Hand Idealize.ShloMosaic Idealize.ShloMosaic.TcCoe
open Idealize.ShloMosaic.ValueIdx Idealize.SL.Sem

variable (m : (ℓ : Loc nD τ sig) → Buf (Elt Ideal) ℓ)

/-- The host operation after the kernel reads the kernel's array and writes its transpose: the program's result is the
    transpose of the kernel's array. -/
theorem resArr_eq_transpose (c : Dev nD) :
    resArr (F := Ideal) m c
      = transpose S16384x64 [1, 0] (outArr (F := Ideal) m c) transposes_S64x16384_S16384x64_1_0 := by
  unfold resArr
  show StableHlo.after hostOps1 _ (Proc.devRef .tc main_v1) = _
  after_results
  unfold Wt
  rw [Function.update_self]

/-- If the kernel's array at (e, r) is the softmax of token `r`'s logits at expert `e`, the program's result is the
    routing probabilities: the transpose at (r, e) reads the array at (e, r). -/
theorem res_eq (c : Dev nD)
    (hout : outArr (F := Ideal) m c = fun j : S64x16384.Idx => Cert.Router.softmaxRow (Cert.Router.logit (m ((c : Thread nD τ).loc main_arg0)) (m ((c : Thread nD τ).loc main_arg1)) (j 1)) (j 0)) :
    resArr (F := Ideal) m c = Cert.Router.probs (m ((c : Thread nD τ).loc main_arg0)) (m ((c : Thread nD τ).loc main_arg1)) := by
  rw [resArr_eq_transpose, hout]
  funext i
  obtain ⟨r, e, rfl⟩ : ∃ (r : Fin 16384) (e : Fin 64), i = ix2 r e := ⟨i 0, i 1, eq_ix2 i⟩
  rw [Cert.Router.probs_ix2]
  exact transpose_apply [1, 0] _ transposes_S64x16384_S16384x64_1_0 (ix2 r e) (ix2 e r)
    (fun b => match b with | ⟨0, _⟩ => rfl | ⟨1, _⟩ => rfl)

end Cert.KernelIdeal.ResValue

end
-- ==== Proof.RefValue.lean ====
/-
  The reference program's result, read at an index, is the routing probabilities `Cert.Router.probs`.

  The program transposes the weights, contracts the activations against them (the logits), takes each row's maximum by a
  fold of `max` from −∞ and once more against a broadcast −∞, subtracts it, exponentiates, sums each row from 0, and
  divides. Read at (r, e): the contraction is `∑ k, x (r, k) · w (e, k)`, the logit; the fold over the 64 columns of row
  `r` is the row's maximum, and the further maximum with −∞ changes nothing since −∞ is the least extended real; the sum
  from 0 is the sum of the 64 shifted exponentials. These are the numerator and the denominator of the softmax.
-/
import proofs.«174773_g5935644803098_cont_9to1_m_954_22_alg».proof.Proof.Gen.ReferenceIdeal.Run
import proofs.«174773_g5935644803098_cont_9to1_m_954_22_alg».proof.Proof.Gen.ReferenceIdeal.Read
import proofs.«174773_g5935644803098_cont_9to1_m_954_22_alg».proof.Proof.Spec
import Idealize.ShloMosaic.PureOps.Ideal.Laws
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx
open Cert.Router
open scoped BigOperators

/-- The float word `0xFF800000` is −∞, the least extended real. -/
theorem negInf_le (y : EReal) : Ideal.ofBits .f32 0xFF800000#32 ≤ y := by
  have hb : Ideal.ofBits .f32 0xFF800000#32 = (⊥ : EReal) := by simp [Ideal.ofBits, Ideal.ieee]
  rw [hb]; exact bot_le

/-! ## The logits -/

/-- The contraction of the activations against the transposed weights, at (r, e), is token `r`'s logit for expert `e`:
    the left operand is read at (r, k), the transposed right operand at (k, e), that is the weights at (e, k). -/
theorem logits_apply (x : FVec Ideal S16384x2048 .f32) (w : FVec Ideal S64x2048 .f32) (r : Fin 16384) (e : Fin 64) :
    val_main_v1 (F := Ideal) x w (ix2 r e) = logit x w r e := by
  rw [val_main_v1_apply]
  unfold logit
  refine Finset.sum_congr rfl fun k _ => ?_
  rw [val_main_v0_apply]
  have el : lidx_main_v1 (ix2 r e) k = ix2 r k :=
    funext fun a => Fin.ext (by match a with | ⟨0, _⟩ => rfl | ⟨1, _⟩ => rfl)
  have er : idx_main_v0 (ridx_main_v1 (ix2 r e) k) = ix2 e k :=
    funext fun a => Fin.ext (by match a with | ⟨0, _⟩ => rfl | ⟨1, _⟩ => rfl)
  rw [el, er]

/-! ## The row maximum -/

/-- Row `r` of the reduced shape with column `k` put back is (r, k). -/
theorem lift_row (h : S16384x64.Reduces [1] S16384) (r : Fin 16384) (k : Fin (S16384x64.size 1)) :
    h.lift (ix1 r) k = ix2 r (⟨k.val, k.isLt⟩ : Fin 64) := by
  funext c; apply Fin.ext
  fin_cases c <;> rfl

/-- The reduce with a maximum body from −∞ over the columns, then the maximum with a broadcast −∞, at row `r`: the
    fold of `max` from −∞ over the row's 64 logits. The outer maximum with −∞ is absorbed, −∞ being least. -/
theorem rowMax_apply (x : FVec Ideal S16384x2048 .f32) (w : FVec Ideal S64x2048 .f32) (r : Fin 16384) :
    val_main_v4 (F := Ideal) x w (ix1 r) = rowMax (logit x w r) := by
  have h : S16384x64.Reduces [1] S16384 := by decide
  rw [val_main_v4_apply]
  unfold val_main_v2
  rw [Host.reduce_eq_fold_single FloatOps.maximumf _ _ reducesTo_S16384x64_S16384_d1 h h_S_]
  have hf : (val_main_v1 (F := Ideal) x w ∘ h.lift (ix1 r)) = fun k : Fin 64 => logit x w r k :=
    funext fun k => (congrArg (val_main_v1 (F := Ideal) x w) (lift_row h r k)).trans (logits_apply x w r _)
  have hfold : (Finset.univ : Finset (Fin (S16384x64.size 1))).fold FloatOps.maximumf
      (val_main_cst (F := Ideal) (Shape.Idx.first h_S_)) (val_main_v1 (F := Ideal) x w ∘ h.lift (ix1 r))
      = (Finset.univ : Finset (Fin 64)).fold max (Ideal.ofBits .f32 0xFF800000#32) (logit x w r) :=
    congrArg (fun f => Finset.fold max (Ideal.ofBits .f32 0xFF800000#32) f (Finset.univ : Finset (Fin 64))) hf
  rw [hfold]
  exact max_eq_right (negInf_le _)

/-! ## The shifted exponentials and their sum -/

/-- The two broadcasts read the row maximum of row `r` at every column; subtracted from the logit and exponentiated. -/
theorem shiftedExp_apply (x : FVec Ideal S16384x2048 .f32) (w : FVec Ideal S64x2048 .f32) (r : Fin 16384) (e : Fin 64) :
    val_main_v8 (F := Ideal) x w (ix2 r e) = Ideal.exp (logit x w r e - rowMax (logit x w r)) := by
  have ei : idx_main_v5 (idx_main_v6 (ix2 r e)) = ix1 r :=
    funext fun a => Fin.ext (by match a with | ⟨0, _⟩ => rfl)
  rw [val_main_v8_apply, val_main_v7_apply, val_main_v6_apply, val_main_v5_apply, ei, rowMax_apply, logits_apply]
  rfl

/-- The reduce with an add body from 0 over the columns, at row `r`: the sum of the row's 64 shifted exponentials. -/
theorem expSum_apply (x : FVec Ideal S16384x2048 .f32) (w : FVec Ideal S64x2048 .f32) (r : Fin 16384) :
    val_main_v9 (F := Ideal) x w (ix1 r) = ∑ e' : Fin 64, Ideal.exp (logit x w r e' - rowMax (logit x w r)) := by
  rw [val_main_v9_apply, val_main_cst_1_apply, Ideal.ofBits_def, Ideal.ofBits_zero_f32, zero_add]
  refine Finset.sum_congr rfl fun k _ => ?_
  have ei : idx_main_v9 (ix1 r) k = ix2 r k :=
    funext fun a => Fin.ext (by match a with | ⟨0, _⟩ => rfl | ⟨1, _⟩ => rfl)
  rw [ei]
  exact shiftedExp_apply x w r k

/-! ## The result -/

/-- The last stage, the quotient of the shifted exponentials by their broadcast row sums, is the routing probabilities. -/
theorem stage_eq (x : FVec Ideal S16384x2048 .f32) (w : FVec Ideal S64x2048 .f32) :
    val_main_v12 (F := Ideal) x w = probs x w := by
  funext i
  obtain ⟨r, e, rfl⟩ : ∃ (r : Fin 16384) (e : Fin 64), i = ix2 r e := ⟨i 0, i 1, eq_ix2 i⟩
  have ei : idx_main_v10 (idx_main_v11 (ix2 r e)) = ix1 r :=
    funext fun a => Fin.ext (by match a with | ⟨0, _⟩ => rfl)
  rw [probs_ix2, val_main_v12_apply, val_main_v11_apply, val_main_v10_apply, ei, expSum_apply, shiftedExp_apply]
  rfl

/-- The composed term the run states for the result buffer, as a function of the two argument arrays, is the routing
    probabilities. -/
theorem result_eq (x : FVec Ideal S16384x2048 .f32) (w : FVec Ideal S64x2048 .f32) :
    Host.divf (F := Ideal) (Host.exp (subf (Host.dotGeneral dot_S16384x2048_S2048x64_S16384x64_1_0_0_1_n_n none x (transpose S2048x64 [1, 0] w transposes_S64x2048_S2048x64_1_0)) (broadcastInDim S16384x64 ![0, 1] bcast_S16384x1_S16384x64_0_1 (broadcastInDim S16384x1 ![0] bcast_S16384_S16384x1_0 (maximumf (broadcastInDim S16384 ![] bcast_S_S16384 (constant (F := Ideal) S_ .f32 0xFF800000#32)) (Host.reduce FloatOps.maximumf (Host.dotGeneral dot_S16384x2048_S2048x64_S16384x64_1_0_0_1_n_n none x (transpose S2048x64 [1, 0] w transposes_S64x2048_S2048x64_1_0)) (constant (F := Ideal) S_ .f32 0xFF800000#32) reducesTo_S16384x64_S16384_d1 h_S_)))))) (broadcastInDim S16384x64 ![0, 1] bcast_S16384x1_S16384x64_0_1 (broadcastInDim S16384x1 ![0] bcast_S16384_S16384x1_0 (Host.reduceAdd (F := Ideal) (Host.exp (subf (Host.dotGeneral dot_S16384x2048_S2048x64_S16384x64_1_0_0_1_n_n none x (transpose S2048x64 [1, 0] w transposes_S64x2048_S2048x64_1_0)) (broadcastInDim S16384x64 ![0, 1] bcast_S16384x1_S16384x64_0_1 (broadcastInDim S16384x1 ![0] bcast_S16384_S16384x1_0 (maximumf (broadcastInDim S16384 ![] bcast_S_S16384 (constant (F := Ideal) S_ .f32 0xFF800000#32)) (Host.reduce FloatOps.maximumf (Host.dotGeneral dot_S16384x2048_S2048x64_S16384x64_1_0_0_1_n_n none x (transpose S2048x64 [1, 0] w transposes_S64x2048_S2048x64_1_0)) (constant (F := Ideal) S_ .f32 0xFF800000#32) reducesTo_S16384x64_S16384_d1 h_S_)))))) (constant (F := Ideal) S_ .f32 0x00000000#32) reducesTo_S16384x64_S16384_d1 h_S_)))
      = probs x w :=
  (val_main_v12_eq (F := Ideal) x w).trans (stage_eq x w)

end Cert.ReferenceIdeal.RefValue

end
-- ==== Proof.lean ====
/-
  The router's certificate: the kernel program and the reference compute the same routing probabilities.

  Both programs take the activations `x` (16384 × 2048) and the expert weights `W` (64 × 2048) and return, for each token
  row, the softmax over the 64 experts of the row of `x · Wᵀ`. The kernel works on blocks of 2048 token rows and writes
  the probabilities expert-major, one column per token, each column the softmax of that token's logits; the host line
  after it transposes the array. The reference forms all the logits, then takes each row's maximum, the shifted
  exponentials and their row sums. Read at an index, both results are `Cert.Router.probs x W`; from memories that agree
  on the two arguments they are therefore equal, and each run leaves its arguments as launched.
-/
import proofs.«174773_g5935644803098_cont_9to1_m_954_22_alg».proof.Defs
import proofs.«174773_g5935644803098_cont_9to1_m_954_22_alg».proof.Proof.Gen.Kernel
import proofs.«174773_g5935644803098_cont_9to1_m_954_22_alg».proof.Proof.Gen.KernelIdeal
import proofs.«174773_g5935644803098_cont_9to1_m_954_22_alg».proof.Proof.Gen.ReferenceIdeal
import proofs.«174773_g5935644803098_cont_9to1_m_954_22_alg».proof.Proof.Gen.Pre_finite_inputs
import proofs.«174773_g5935644803098_cont_9to1_m_954_22_alg».proof.Proof.Gen.ReferenceIdeal.Run
import proofs.«174773_g5935644803098_cont_9to1_m_954_22_alg».proof.Proof.K.Run
import proofs.«174773_g5935644803098_cont_9to1_m_954_22_alg».proof.Proof.KI.Run
import proofs.«174773_g5935644803098_cont_9to1_m_954_22_alg».proof.Proof.KI.OutValue
import proofs.«174773_g5935644803098_cont_9to1_m_954_22_alg».proof.Proof.KI.ResValue
import proofs.«174773_g5935644803098_cont_9to1_m_954_22_alg».proof.Proof.RefValue

noncomputable section

namespace Cert.Proof

open Idealize.ShloMosaic Idealize.SL.Sem

/-- The kernel program at the machine's words runs to its end without a fault and leaves its two arguments as launched. -/
theorem frame_k : Cert.frame_Kernel := fun m ρ _ =>
  (θ_run Cert.Kernel.defs _ _).mono (fun _ h c => ⟨(h c).2.1, (h c).2.2⟩) (Cert.Kernel.Hand.run_main (F := Bits) m ρ)

/-- The same program over the extended reals: it runs to its end and leaves its two arguments as launched. -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- The reference over the extended reals: it runs to its end and leaves its two arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading over the extended reals: nothing to preserve. -/
theorem preserves : Cert.preserves_Kernel_KernelIdeal := trivial

/-- Over the extended reals, from memories that agree on `x` and `W`: the kernel program's result is the transpose of the
    expert-major softmax columns, the reference's is the row-by-row softmax, and both are `Cert.Router.probs x W`. -/
theorem algebraic : Cert.algebraic_KernelIdeal_ReferenceIdeal := by
  intro m ρ m' ρ' _ hagree
  refine ⟨fun c => Cert.Router.probs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.ResValue.res_eq m c (Cert.KernelIdeal.OutValue.out_final m c)), (h c).2⟩)
      (Cert.KernelIdeal.Hand.run_main (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
